-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x2048x4096 .f32) (main_arg1 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4x2048x4096 : Shape := ⟨3, ![4, 2048, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S8192x4096 : Shape := ⟨2, ![8192, 4096]⟩
abbrev S1024x1024 : Shape := ⟨2, ![1024, 1024]⟩
abbrev S1024x16x64 : Shape := ⟨3, ![1024, 16, 64]⟩
abbrev S1024x16 : Shape := ⟨2, ![1024, 16]⟩
abbrev S1024x16x1 : Shape := ⟨3, ![1024, 16, 1]⟩

abbrev nBuf : Space → Nat
  | .hbm => 30
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .bf16⟩
  | .hbm, ⟨27, _⟩ => ⟨S8192x4096, .f32⟩
  | .hbm, ⟨28, _⟩ => ⟨S8192x4096, .f32⟩
  | .hbm, ⟨29, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_cst_3 : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v32 : BitVec 1 := Scalar.cmpi .eq arg2 c3_i32
  let v33 : BitVec 32 := Scalar.extui v32
  let c0_i32_13 : BitVec 32 := 0#32
  let v34 : BitVec 1 := Scalar.cmpi .ne v33 c0_i32_13
  v34

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  bitsLt_bf16_f32 : FTy.bits .bf16 < FTy.bits .f32
  shapeCasts_S4x2048x4096_S8192x4096 : S4x2048x4096.ShapeCasts S8192x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x1024_S1024x16x64 : S1024x1024.ShapeCasts S1024x16x64
  reduces_S1024x16x64_S1024x16 : S1024x16x64.Reduces [2] S1024x16
  shapeCasts_S1024x16_S1024x16x1 : S1024x16.ShapeCasts S1024x16x1
  broadcasts_S1024x16x1_S1024x16x64 : S1024x16x1.Broadcasts S1024x16x64
  shapeCasts_S1024x16x64_S1024x1024 : S1024x16x64.ShapeCasts S1024x1024
  shapeCasts_S8192x4096_S4x2048x4096 : S8192x4096.ShapeCasts S4x2048x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v13) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4x2048x64x64 : Shape := ⟨4, ![4, 2048, 64, 64]⟩
abbrev S_ : Shape := ⟨0, ![]⟩
abbrev S4x2048x64 : Shape := ⟨3, ![4, 2048, 64]⟩
abbrev S4x2048x64x1 : Shape := ⟨4, ![4, 2048, 64, 1]⟩
abbrev S4096 : Shape := ⟨1, ![4096]⟩
abbrev S4096x1 : Shape := ⟨2, ![4096, 1]⟩

abbrev nBuf : Space → Nat
  | .hbm => 57
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4x2048x64x64, .f32⟩
  | .hbm, ⟨3, _⟩ => ⟨S4x2048x64x64, .f32⟩
  | .hbm, ⟨4, _⟩ => ⟨S_, .f32⟩
  | .hbm, ⟨5, _⟩ => ⟨S4x2048x64, .f32⟩
  | .hbm, ⟨6, _⟩ => ⟨S4x2048x64x1, .f32⟩
  | .hbm, ⟨7, _⟩ => ⟨S_, .f32⟩
  | .hbm, ⟨8, _⟩ => ⟨S_, .f32⟩
  | .hbm, ⟨9, _⟩ => ⟨S4x2048x64x1, .f32⟩
  | .hbm, ⟨10, _⟩ => ⟨S4x2048x64x1, .f32⟩
  | .hbm, ⟨11, _⟩ => ⟨S_, .f32⟩
  | .hbm, ⟨12, _⟩ => ⟨S4x2048x64x1, .f32⟩
  | .hbm, ⟨13, _⟩ => ⟨S4x2048x64x1, .f32⟩
  | .hbm, ⟨14, _⟩ => ⟨S4x2048x64x64, .f32⟩
  | .hbm, ⟨15, _⟩ => ⟨S4x2048x64x64, .f32⟩
  | .hbm, ⟨16, _⟩ => ⟨S4x2048x64x64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4x2048x64x64, .f32⟩
  | .hbm, ⟨21, _⟩ => ⟨S4x2048x64x64, .f32⟩
  | .hbm, ⟨22, _⟩ => ⟨S_, .f32⟩
  | .hbm, ⟨23, _⟩ => ⟨S4x2048x64x64, .f32⟩
  | .hbm, ⟨24, _⟩ => ⟨S4x2048x64x64, .f32⟩
  | .hbm, ⟨25, _⟩ => ⟨S4x2048x64x64, .f32⟩
  | .hbm, ⟨26, _⟩ => ⟨S4x2048x64x64, .f32⟩
  | .hbm, ⟨27, _⟩ => ⟨S4x2048x4096, .f32⟩
  | .hbm, ⟨28, _⟩ => ⟨S4x2048x4096, .f32⟩
  | .hbm, ⟨29, _⟩ => ⟨S4x2048x4096, .f32⟩
  | .hbm, ⟨30, _⟩ => ⟨S4096x4096, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096x4096, .f32⟩
  | .hbm, ⟨48, _⟩ => ⟨S4096x4096, .f32⟩
  | .hbm, ⟨49, _⟩ => ⟨S_, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_cst_3 : Ref sig .tc := ⟨.hbm, 18, rfl⟩
abbrev main_call2_v0 : Ref sig .tc := ⟨.hbm, 19, rfl⟩
abbrev main_call2_v1 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_call3_v0 : Ref sig .tc := ⟨.hbm, 38, rfl⟩
abbrev main_call3_v1 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_7 : Ref sig .tc := ⟨.hbm, 44, rfl⟩
abbrev main_cst_8 : Ref sig .tc := ⟨.hbm, 45, rfl⟩
abbrev main_call5_v0 : Ref sig .tc := ⟨.hbm, 46, rfl⟩
abbrev main_call5_v1 : Ref sig .tc := ⟨.hbm, 47, rfl⟩
abbrev main_call5_v2 : Ref sig .tc := ⟨.hbm, 48, rfl⟩
abbrev main_call5_v3 : Ref sig .tc := ⟨.hbm, 49, rfl⟩
abbrev main_call5_v4 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩

abbrev nD : Nat := 1
abbrev τ : Topo := Topo.v7x

variable {F : FTy → Type} [FloatOps F]

class Facts₀ : Prop where
  shapeCasts_S4x2048x4096_S4x2048x64x64 : S4x2048x4096.ShapeCasts S4x2048x64x64
  reducesTo_S4x2048x64x64_S4x2048x64_d3 : S4x2048x64x64.ReducesTo [3] S4x2048x64
  h_S_ : 0 < S_.numel
  bcast_S4x2048x64_S4x2048x64x1_0_1_2 : S4x2048x64.BroadcastsInDim S4x2048x64x1 (![0, 1, 2] : Fin 3 → Fin S4x2048x64x1.rank)
  bcast_S_S4x2048x64x1 : S_.BroadcastsInDim S4x2048x64x1 (![] : Fin 0 → Fin S4x2048x64x1.rank)
  bcast_S4x2048x64x1_S4x2048x64x64_0_1_2_3 : S4x2048x64x1.BroadcastsInDim S4x2048x64x64 (![0, 1, 2, 3] : Fin 4 → Fin S4x2048x64x64.rank)
  bcast_S_S4x2048x64x64 : S_.BroadcastsInDim S4x2048x64x64 (![] : Fin 0 → Fin S4x2048x64x64.rank)
  shapeCasts_S4x2048x64x64_S4x2048x4096 : S4x2048x64x64.ShapeCasts S4x2048x4096
  reducesTo_S4096x4096_S4096_d1 : S4096x4096.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.TilePieces.lean ====
/-
  What one grid point leaves behind, read back as values (any float instance).

  The body keeps a [1024, 1024] accumulator in scratch across the four points of the contraction axis. At every point it
  stores `tile x w acc` — the generated payload `k0_pay2`: the accumulator's contents plus the product of the quantized
  activation tile with the weight tile — over what it loaded from the three buffers. At the first of the four points
  (case A) the accumulator is first reset to the zero block `k0_pay1` and that zero is what is loaded back; at the last
  (case C) the accumulator just stored is loaded back once more and stored whole into the output's buffer. So:

    case A : scratch ← tile x w 0                       (output buffer untouched)
    case B : scratch ← tile x w acc                     (output buffer untouched)
    case C : scratch ← tile x w acc,  output ← the same

  Each is the canonical contents of the run's covering stores (one store; in case A the reset under it), every load
  reading a whole buffer at its contents.
-/
import proofs.«142483_j88905823027952_1_alg».proof.Proof.Gen.KernelIdeal.Frame
import Idealize.ShloMosaic.Lib.Pipeline.Value
import Idealize.ShloMosaic.Lib.Tactic

noncomputable section

namespace Cert.KernelIdeal.TilePieces

open Idealize.ShloMosaic Idealize.ShloMosaic.TcCoe Idealize.SL.Sem Cert.KernelIdeal Cert.KernelIdeal.Gen

variable {F : FTy → Type} [FloatOps F]

theorem origin : (![0, 0] : Fin 2 → Nat) = fun _ => 0 := funext fun a => by fin_cases a <;> rfl

/-- Case B (the two middle points of the contraction axis): the scratch ends at `tile x w acc`. -/
theorem scratch_B (c : Dev nD) (i : grid0.Coords) (a3 : Memref sig .tc .vmem S1024x1024 .f32) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : ¬cond0_1 i)
    (x : Vec F S1024x1024 .f32) (w : Vec F S1024x1024 .bf16) (acc : Vec F S1024x1024 .f32) :
    sout0_B_0 c i a3 h3 a4 h4 a5 h5 a6 h6 hc0 hc1 x w acc = k0_pay2 x w acc := by
  unfold sout0_B_0
  rw [View.read_writes_eq_canon _ _ _ (scover0_B_0 c i a3 h3 a4 h4 a5 h5 a6 h6 hc0 hc1 x w acc)]
  unfold kernelRun0_B
  dsimp only
  sl_unfold_words
  rw [View.canon_unit_zero origin]
  simp only [View.readAt_eq_ld, h3.read_unread, h4.read_unread, h6.read_unread, View.ld_unit_zero (S := S1024x1024) origin]

/-- Case A (the first point): the accumulator is reset, so the scratch ends at `tile x w 0`, the zero block being the
    payload `k0_pay1` read back through the reset's own store. -/
theorem scratch_A (c : Dev nD) (i : grid0.Coords) (a3 : Memref sig .tc .vmem S1024x1024 .f32) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : cond0_0 i) (hc1 : ¬cond0_1 i)
    (x : Vec F S1024x1024 .f32) (w : Vec F S1024x1024 .bf16) :
    sout0_A_0 c i a3 h3 a4 h4 a5 h5 a6 h6 hc0 hc1 x w = k0_pay2 x w (k0_pay1 (F := F)) := by
  unfold sout0_A_0
  rw [View.read_writes_eq_canon _ _ _ (scover0_A_0 c i a3 h3 a4 h4 a5 h5 a6 h6 hc0 hc1 x w)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S1024x1024) origin]

/-- Case C (the last point): the scratch ends at `tile x w acc`, -/
theorem scratch_C (c : Dev nD) (i : grid0.Coords) (a3 : Memref sig .tc .vmem S1024x1024 .f32) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i)
    (x : Vec F S1024x1024 .f32) (w : Vec F S1024x1024 .bf16) (acc : Vec F S1024x1024 .f32) :
    sout0_C_0 c i a3 h3 a4 h4 a5 h5 a6 h6 hc0 hc1 x w acc = k0_pay2 x w acc := by
  unfold sout0_C_0
  rw [View.read_writes_eq_canon _ _ _ (scover0_C_0 c i a3 h3 a4 h4 a5 h5 a6 h6 hc0 hc1 x w acc)]
  unfold kernelRun0_C
  dsimp only
  sl_unfold_words
  rw [View.canon_unit_zero origin]
  simp only [View.readAt_eq_ld, h3.read_unread, h4.read_unread, h6.read_unread, View.ld_unit_zero (S := S1024x1024) origin]

/-- and the output's buffer at the same block: it is the accumulator loaded back after that store. -/
theorem output_C (c : Dev nD) (i : grid0.Coords) (a3 : Memref sig .tc .vmem S1024x1024 .f32) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i)
    (x : Vec F S1024x1024 .f32) (w : Vec F S1024x1024 .bf16) (acc : Vec F S1024x1024 .f32) :
    out0_C_2 c i a3 h3 a4 h4 a5 h5 a6 h6 hc0 hc1 x w acc = k0_pay2 x w acc := by
  unfold out0_C_2
  rw [View.read_writes_eq_canon _ _ _ (cover0_C_2 c i a3 h3 a4 h4 a5 h5 a6 h6 hc0 hc1 x w acc)]
  unfold kernelRun0_C
  dsimp only
  sl_unfold_words
  rw [View.canon_unit_zero origin, View.readCov_unit_zero (S := S1024x1024) _ origin]
  simp only [View.readAt_eq_ld, h3.read_unread, h4.read_unread, h6.read_unread, View.ld_unit_zero (S := S1024x1024) origin]

end Cert.KernelIdeal.TilePieces

end
-- ==== Proof.Accumulate.lean ====
/-
  The accumulator across the contraction axis, point by point (any float instance).

  Grid point `t` of the [8, 4, 4] grid is (i, j, k) = (t / 16, t / 4 % 4, t % 4): row tile, column tile, tile of the
  contraction axis, the last running fastest. After the body at point `t` the scratch holds

      tile (x-tile at (i, k)) (w-tile at (j, k)) (what the scratch held),

  the held contents being the zero block at the first of every four points (k = 0: the body resets it) and what the
  point before left otherwise; at the last of the four (k = 3) the output's staging buffer holds the same block.
-/
import proofs.«142483_j88905823027952_1_alg».proof.Proof.Gen.KernelIdeal.Frame
import proofs.«142483_j88905823027952_1_alg».proof.Proof.TilePieces

noncomputable section

namespace Cert.KernelIdeal.Accumulate

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- The activations [8192, 4096] and the ternary weights [4096, 4096] as the region finds them, -/
abbrev xarr (c : Dev nD) : Vec F S8192x4096 .f32 := V m c main_v13
abbrev warr (c : Dev nD) : Vec F S4096x4096 .bf16 := V m c main_v12
/-- and their tiles at a grid point. -/
abbrev xblk (c : Dev nD) (t : Fin cfg0.N) : Vec F S1024x1024 .f32 := iblk m c 0 t
abbrev wblk (c : Dev nD) (t : Fin cfg0.N) : Vec F S1024x1024 .bf16 := iblk m c 1 t

/-- What the scratch held when the body at point `t` loaded it: zero after the reset, else the point before's. -/
def held (c : Dev nD) (t : Fin cfg0.N) : Vec F S1024x1024 .f32 :=
  if t.val % 4 = 0 then k0_pay1 (F := F)
  else (outsAt0 m c (t.val - 1) (Nat.lt_of_le_of_lt (Nat.sub_le _ _) t.isLt)).2

/-- After point `t` the scratch holds the tile over what it held. -/
theorem scratch_step (c : Dev nD) (t : Fin cfg0.N) :
    (outsAt0 m c t.val t.isLt).2 = k0_pay2 (xblk m c t) (wblk m c t) (held m c t) := by
  have hN : t.val < 128 := lt_of_lt_of_eq t.isLt (show cfg0.N = 128 from N_0)
  unfold held
  by_cases h0 : t.val % 4 = 0
  · have h1 : ¬t.val % 4 = 3 := by omega
    rw [if_pos h0, outsAt0_A m c t h0 h1]
    dsimp only
    exact TilePieces.scratch_A c (grid0.coords t) (ms0_0 t) (hs0_0 t) (ms0_1 t) (hs0_1 t) (ms0_2 t) (hs0_2 t) scM0_0
      (Memref.isWhole_whole _) ((hcond0_0 t).mpr h0) (fun h => h1 ((hcond0_1 t).mp h)) (iblk m c 0 t) (iblk m c 1 t)
  · rw [if_neg h0]
    by_cases h1 : t.val % 4 = 3
    · rw [outsAt0_C m c t h0 h1]
      dsimp only
      exact TilePieces.scratch_C c (grid0.coords t) (ms0_0 t) (hs0_0 t) (ms0_1 t) (hs0_1 t) (ms0_2 t) (hs0_2 t) scM0_0
        (Memref.isWhole_whole _) (fun h => h0 ((hcond0_0 t).mp h)) ((hcond0_1 t).mpr h1) (iblk m c 0 t) (iblk m c 1 t)
        (outsAt0 m c (t.val - 1) (Nat.lt_of_le_of_lt (Nat.sub_le _ _) t.isLt)).2
    · rw [outsAt0_B m c t h0 h1]
      dsimp only
      exact TilePieces.scratch_B c (grid0.coords t) (ms0_0 t) (hs0_0 t) (ms0_1 t) (hs0_1 t) (ms0_2 t) (hs0_2 t) scM0_0
        (Memref.isWhole_whole _) (fun h => h0 ((hcond0_0 t).mp h)) (fun h => h1 ((hcond0_1 t).mp h)) (iblk m c 0 t) (iblk m c 1 t)
        (outsAt0 m c (t.val - 1) (Nat.lt_of_le_of_lt (Nat.sub_le _ _) t.isLt)).2

/-- At the last of the four points the output's buffer holds what the scratch holds. -/
theorem output_last (c : Dev nD) (t : Fin cfg0.N) (h1 : t.val % 4 = 3) :
    (outsAt0 m c t.val t.isLt).1 = (outsAt0 m c t.val t.isLt).2 := by
  have h0 : ¬t.val % 4 = 0 := by omega
  rw [outsAt0_C m c t h0 h1]
  dsimp only
  exact (TilePieces.output_C c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2).trans
    (TilePieces.scratch_C c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2).symm

end Cert.KernelIdeal.Accumulate

end
-- ==== Proof.GroupQuant.lean ====
/-
  The arithmetic the two programs share, stated once over the extended reals and over no program.

  ONE GROUP'S QUANTIZER. A row of the activations is cut into groups of 64 consecutive entries. For a group
  `g : Fin 64 → EReal` let `a = max_e |g e|` (the maximum taken from `-∞`), `s = 127 / max(ε, a)` with
  `ε = f32(1e-5)`; entry `e` of the group is replaced by `clip(round(g e · s), -127, 127) / s`, rounding to
  nearest, ties to even. `quant g e` is that number. Both programs compute it with the same constants; they
  differ only in how the entries are laid out (a [1024, 1024] tile viewed as [1024, 16, 64] against the whole
  array viewed as [4, 2048, 64, 64]).

  THE STRAIGHT-THROUGH WRAPPER. The reference returns `x + (q - x)` where the kernel uses `q`. On the extended
  reals that is `q` whenever `x` is a real number (at `x = ±∞` it is not): `add_sub_cancel_real`.

  REGROUPING A CONTRACTION. A sum over 4096 consecutive naturals is the sum of four sums over 1024 of them;
  the tiles of the contraction axis add up to the whole contraction in any commutative monoid, with no
  finiteness asked: `Finset.sum_range_add` is all that is used, where the accumulation is proved.
-/
import Idealize.ShloMosaic.PureOps.Ideal
import Idealize.ShloMosaic.PureOps.Ideal.Laws

noncomputable section

namespace Cert.GroupQuant

open Idealize.ShloMosaic

/-- The largest absolute value of a group, from `-∞` (the pattern `0xFF800000`). -/
def absmax (g : Fin 64 → EReal) : EReal :=
  (Finset.univ : Finset (Fin 64)).fold max (Ideal.ofBits .f32 0xFF800000#32) (fun e => max (g e) (-(g e)))

/-- The group's scale: `127 / max(ε, absmax)`. -/
def scale (g : Fin 64 → EReal) : EReal :=
  Ideal.div (Ideal.ofBits .f32 0x42FE0000#32) (max (Ideal.ofBits .f32 0x3727C5AC#32) (absmax g))

/-- Entry `e` of the group, quantized and scaled back: `clip(round(g e · s), -127, 127) / s`. -/
def quant (g : Fin 64 → EReal) (e : Fin 64) : EReal :=
  Ideal.div
    (min (Ideal.ofBits .f32 0x42FE0000#32)
      (max (Ideal.ofBits .f32 0xC2FE0000#32) (Ideal.liftRound Ideal.roundHalfEven (g e * scale g))))
    (scale g)

/-- For a real `x` and any extended real `q`: `x + (q - x) = q`. -/
theorem add_sub_cancel_real (x : ℝ) (q : EReal) : (x : EReal) + (q - (x : EReal)) = q := by
  induction q using EReal.rec with
  | bot => simp
  | top => simp
  | coe s => norm_cast; ring

end Cert.GroupQuant

end
-- ==== Proof.TileValue.lean ====
/-
  The tile's value at an index, over the extended reals.

  `tile x w acc` (the generated payload `k0_pay2`) at row `r`, column `s` of its [1024, 1024] block is

      acc[r, s] + Σ_{k < 1024} q[r, k] · w[s, k],

  the accumulator plus one tile of the contraction (both operands contract their last axis), where `q` is the
  activation tile quantized group by group: the tile is viewed as [1024, 16, 64], so entry `k` of row `r` lies in
  group `k / 64` at place `k % 64`, the group's largest absolute value is the lane maximum over the last axis,
  and `q[r, k] = GroupQuant.quant (the group) (k % 64)`. The casts to bf16 are the identity on the extended reals.
-/
import proofs.«142483_j88905823027952_1_alg».proof.Proof.Gen.KernelIdeal.Skeleton
import proofs.«142483_j88905823027952_1_alg».proof.Proof.GroupQuant
import Idealize.ShloMosaic.Lib.Pipeline.Value
import Idealize.ShloMosaic.Lib.ValueIdx
import Idealize.ShloMosaic.PureOps.Ideal.Laws

noncomputable section

namespace Cert.KernelIdeal.TileValue

open Idealize.ShloMosaic Idealize.ShloMosaic.ValueIdx Cert.KernelIdeal Cert.KernelIdeal.Gen

/-! ## The [1024, 1024] tile viewed as [1024, 16, 64] and back -/

/-- Entry `e` of group `g` of a row, as a column of the tile: `64 g + e`. -/
abbrev col (g : Fin 16) (e : Fin 64) : Fin 1024 := ⟨g.val * 64 + e.val, by have := g.isLt; have := e.isLt; omega⟩
/-- The group a column lies in, and its place there. -/
abbrev grpOf (k : Fin 1024) : Fin 16 := ⟨k.val / 64, by have := k.isLt; omega⟩
abbrev placeOf (k : Fin 1024) : Fin 64 := ⟨k.val % 64, Nat.mod_lt _ (by decide)⟩

variable {α : Type}

/-- The tile cast to [1024, 16, 64], read at (r, g, e): the tile at (r, 64 g + e). -/
theorem groups_apply (y : S1024x1024.Idx → α) (h : S1024x1024.ShapeCasts S1024x16x64) (r : Fin 1024) (g : Fin 16) (e : Fin 64) :
    shapeCast S1024x16x64 y h (ix3 r g e) = y (ix2 r (col g e)) :=
  shapeCast_apply y h (ix3 r g e) (ix2 r (col g e)) (by
    rw [Shape.rowMajor_val_two, Shape.rowMajor_val_three]
    show r.val * 1024 + (g.val * 64 + e.val) = (r.val * 16 + g.val) * 64 + e.val
    omega)

/-- A [1024, 16, 64] vector cast back to the tile, read at (r, k): the vector at (r, k / 64, k % 64). -/
theorem ungroup_apply (z : S1024x16x64.Idx → α) (h : S1024x16x64.ShapeCasts S1024x1024) (r k : Fin 1024) :
    shapeCast S1024x1024 z h (ix2 r k) = z (ix3 r (grpOf k) (placeOf k)) :=
  shapeCast_apply z h (ix2 r k) (ix3 r (grpOf k) (placeOf k)) (by
    rw [Shape.rowMajor_val_two, Shape.rowMajor_val_three]
    show (r.val * 16 + k.val / 64) * 64 + k.val % 64 = r.val * 1024 + k.val
    omega)

/-- The group maxima [1024, 16] given a trailing unit axis, read at (r, g, 0). -/
theorem keepdims_apply (u : S1024x16.Idx → α) (h : S1024x16.ShapeCasts S1024x16x1) (r : Fin 1024) (g : Fin 16) (o : Fin 1) :
    shapeCast S1024x16x1 u h (ix3 r g o) = u (ix2 r g) :=
  shapeCast_apply u h (ix3 r g o) (ix2 r g) (by
    rw [Shape.rowMajor_val_two, Shape.rowMajor_val_three]
    show r.val * 16 + g.val = (r.val * 16 + g.val) * 1 + o.val
    have := o.isLt; omega)

/-- A [1024, 16, 1] vector broadcast along the groups' 64 places, read at (r, g, e): its entry (r, g, 0). -/
theorem spread_apply (v : S1024x16x1.Idx → α) (h : S1024x16x1.Broadcasts S1024x16x64) (r : Fin 1024) (g : Fin 16) (e : Fin 64) :
    broadcastTo S1024x16x64 v h (ix3 r g e) = v (ix3 r g (0 : Fin 1)) :=
  broadcastTo_apply v h (ix3 r g e) (ix3 r g (0 : Fin 1)) (fun a => by
    match a with
    | ⟨0, _⟩ => rfl
    | ⟨1, _⟩ => rfl
    | ⟨2, _⟩ => rfl)

/-! ## The quantized tile, step by step (any float instance), and the payload over it -/

section Steps
variable {F : FTy → Type} [FloatOps F]

/-- The activation tile viewed as 16 groups of 64 per row. -/
def grouped (x : Vec F S1024x1024 .f32) : FVec F S1024x16x64 .f32 :=
  shapeCast S1024x16x64 (shapeCast S1024x1024 x shapeCasts_S1024x1024_S1024x1024) shapeCasts_S1024x1024_S1024x16x64

/-- Each group's scale `127 / max(ε, max |·|)`, kept with a trailing unit axis. -/
def scales (x : Vec F S1024x1024 .f32) : FVec F S1024x16x1 .f32 :=
  divf (broadcast S1024x16x1 (Scalar.ofBits .f32 0x42FE0000#32))
    (maximumf (broadcast S1024x16x1 (Scalar.ofBits .f32 0x3727C5AC#32))
      (shapeCast S1024x16x1
        (multiReduction .maximumf [2] S1024x16 (absf (grouped x)) 0xFF800000#32 reduces_S1024x16x64_S1024x16 (.inl rfl) rfl)
        shapeCasts_S1024x16_S1024x16x1))

/-- The groups quantized and scaled back: `clip(round(x · s), -127, 127) / s`. -/
def qgrouped (x : Vec F S1024x1024 .f32) : FVec F S1024x16x64 .f32 :=
  divf
    (minimumf (broadcast S1024x16x64 (Scalar.ofBits .f32 0x42FE0000#32))
      (maximumf (broadcast S1024x16x64 (Scalar.ofBits .f32 0xC2FE0000#32))
        (roundeven (mulf (grouped x) (broadcastTo S1024x16x64 (scales x) broadcasts_S1024x16x1_S1024x16x64)))))
    (broadcastTo S1024x16x64 (scales x) broadcasts_S1024x16x1_S1024x16x64)

/-- The quantized tile as the matmul takes it: back to [1024, 1024], narrowed to bf16. -/
def qtile (x : Vec F S1024x1024 .f32) : FVec F S1024x1024 .bf16 :=
  truncf .bf16 (shapeCast S1024x1024 (qgrouped x) shapeCasts_S1024x16x64_S1024x1024) bitsLt_bf16_f32

/-- The payload is the accumulator plus the product of the quantized tile with the weight tile. -/
theorem payload_eq (x : Vec F S1024x1024 .f32) (w : Vec F S1024x1024 .bf16) (acc : Vec F S1024x1024 .f32) :
    k0_pay2 x w acc
      = shapeCast S1024x1024
          (addf acc (matmul dot_S1024x1024_S1024x1024_S1024x1024_1_1_0_0_n_n none (qtile x)
            (shapeCast S1024x1024 w shapeCasts_S1024x1024_S1024x1024) (constant S1024x1024 .f32 0x00000000#32)))
          shapeCasts_S1024x1024_S1024x1024 := rfl

end Steps

/-! ## Read at an index, over the extended reals -/

/-- A lane maximum over the groups' 64 places, read at (r, g): the fold of `max` from `-∞` over the group. -/
theorem groupMax_apply (z : FVec Ideal S1024x16x64 .f32) (h : S1024x16x64.Reduces [2] S1024x16)
    (hφ : FKind.Formats .f32) (hacc : (0xFF800000#32 : BitVec 32) = FKind.maximumf.neutral .f32 hφ) (r : Fin 1024) (g : Fin 16) :
    multiReduction .maximumf [2] S1024x16 z 0xFF800000#32 h hφ hacc (ix2 r g)
      = (Finset.univ : Finset (Fin 64)).fold max (Ideal.ofBits .f32 0xFF800000#32) (fun e => z (ix3 r g e)) := by
  refine (Ideal.multiReduction_maximumf_single z 0xFF800000#32 h hφ hacc (ix2 r g)).trans ?_
  refine congrArg (fun f => (Finset.univ : Finset (Fin 64)).fold max (Ideal.ofBits .f32 0xFF800000#32) f) (funext fun e => ?_)
  refine congrArg z (funext fun a => Fin.ext ?_)
  match a with
  | ⟨0, _⟩ => rfl
  | ⟨1, _⟩ => rfl
  | ⟨2, _⟩ => rfl

variable (x : FVec Ideal S1024x1024 .f32)

/-- The 64 entries of group `g` of row `r` of the tile. -/
abbrev group (r : Fin 1024) (g : Fin 16) : Fin 64 → EReal := fun e => x (ix2 r (col g e))

theorem grouped_apply (r : Fin 1024) (g : Fin 16) (e : Fin 64) :
    grouped (F := Ideal) x (ix3 r g e) = x (ix2 r (col g e)) := by
  unfold grouped
  rw [shapeCast_self]
  exact groups_apply x _ r g e

theorem scales_apply (r : Fin 1024) (g : Fin 16) (o : Fin 1) :
    scales (F := Ideal) x (ix3 r g o) = GroupQuant.scale (group x r g) := by
  unfold scales
  rw [divf_apply, maximumf_apply, keepdims_apply]
  unfold GroupQuant.scale GroupQuant.absmax
  refine congrArg (fun t => Ideal.div (Ideal.ofBits .f32 0x42FE0000#32) (max (Ideal.ofBits .f32 0x3727C5AC#32) t)) ?_
  refine (groupMax_apply (absf (grouped (F := Ideal) x)) _ _ _ r g).trans ?_
  refine congrArg (fun t => (Finset.univ : Finset (Fin 64)).fold max (Ideal.ofBits .f32 0xFF800000#32) t) (funext fun e => ?_)
  show max (grouped (F := Ideal) x (ix3 r g e)) (-(grouped (F := Ideal) x (ix3 r g e))) = _
  rw [grouped_apply]

theorem qgrouped_apply (r : Fin 1024) (g : Fin 16) (e : Fin 64) :
    qgrouped (F := Ideal) x (ix3 r g e) = GroupQuant.quant (group x r g) e := by
  unfold qgrouped
  rw [divf_apply, minimumf_apply, maximumf_apply, spread_apply, scales_apply]
  show Ideal.div (min (Ideal.ofBits .f32 0x42FE0000#32) (max (Ideal.ofBits .f32 0xC2FE0000#32)
      (Ideal.liftRound Ideal.roundHalfEven (grouped (F := Ideal) x (ix3 r g e)
        * broadcastTo S1024x16x64 (scales (F := Ideal) x) broadcasts_S1024x16x1_S1024x16x64 (ix3 r g e))))) _ = _
  rw [spread_apply, scales_apply, grouped_apply]
  rfl

/-- The quantized tile at (r, k): the quantizer of the group `k / 64` of row `r`, at place `k % 64`. -/
theorem qtile_apply (r k : Fin 1024) :
    qtile (F := Ideal) x (ix2 r k) = GroupQuant.quant (group x r (grpOf k)) (placeOf k) := by
  unfold qtile
  rw [truncf_apply, ungroup_apply, qgrouped_apply]

/-! ## The tile of the contraction as a sum -/

theorem lhs_row (i : S1024x1024.Idx) (q : dot_S1024x1024_S1024x1024_S1024x1024_1_1_0_0_n_n.contr.Idx) : (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_contr (i : S1024x1024.Idx) (q : dot_S1024x1024_S1024x1024_S1024x1024_1_1_0_0_n_n.contr.Idx) : (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_row (i : S1024x1024.Idx) (q : dot_S1024x1024_S1024x1024_S1024x1024_1_1_0_0_n_n.contr.Idx) : (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_contr (i : S1024x1024.Idx) (q : dot_S1024x1024_S1024x1024_S1024x1024_1_1_0_0_n_n.contr.Idx) : (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- `tile x w acc` at (r, s): the accumulator there plus `Σ_k q[r, k] · w[s, k]` over the tile's 1024 columns. -/
theorem tile_apply (w : FVec Ideal S1024x1024 .bf16) (acc : FVec Ideal S1024x1024 .f32) (r s : Fin 1024) :
    k0_pay2 (F := Ideal) x w acc (ix2 r s)
      = acc (ix2 r s) + ∑ k : Fin 1024, qtile (F := Ideal) x (ix2 r k) * w (ix2 s k) := by
  rw [payload_eq]
  generalize qtile (F := Ideal) x = q
  rw [shapeCast_self, shapeCast_self, addf_apply]
  simp only [matmul]
  rw [Ideal.matmul_constant_zero_apply, ← Equiv.sum_comp (contrEquiv1 dot_S1024x1024_S1024x1024_S1024x1024_1_1_0_0_n_n 1024 rfl rfl).symm]
  refine congrArg (acc (ix2 r s) + ·) (Finset.sum_congr rfl fun k _ => ?_)
  have hk := contrEquiv1_symm_val dot_S1024x1024_S1024x1024_S1024x1024_1_1_0_0_n_n 1024 rfl rfl k
  have el : dot_S1024x1024_S1024x1024_S1024x1024_1_1_0_0_n_n.lhsIdx (ix2 r s) ((contrEquiv1 dot_S1024x1024_S1024x1024_S1024x1024_1_1_0_0_n_n 1024 rfl rfl).symm k) = ix2 r k := funext fun a => Fin.ext (by
    match a with
    | ⟨0, _⟩ => exact lhs_row _ _
    | ⟨1, _⟩ => exact (lhs_contr _ _).trans hk)
  have er : dot_S1024x1024_S1024x1024_S1024x1024_1_1_0_0_n_n.rhsIdx (ix2 r s) ((contrEquiv1 dot_S1024x1024_S1024x1024_S1024x1024_1_1_0_0_n_n 1024 rfl rfl).symm k) = ix2 s k := funext fun a => Fin.ext (by
    match a with
    | ⟨0, _⟩ => exact rhs_row _ _
    | ⟨1, _⟩ => exact (rhs_contr _ _).trans hk)
  rw [el, er]

end Cert.KernelIdeal.TileValue

end
-- ==== Proof.Contraction.lean ====
/-
  The whole contraction, over the extended reals: what the output array holds after the region.

  Write X = the activations [8192, 4096] and W = the ternary weights [4096, 4096] as the region finds them, and
  Q[a, k] = X's entry (a, k) quantized within its group of 64 (GroupQuant.quant of the group k / 64 of row a, at
  place k % 64). Reading both arrays at natural-number coordinates (reduced modulo the extents, so that the readings
  are total), the scratch after grid point n = (i, j, k) holds at (r, s)

      Σ_{kx < 1024 (k + 1)} Q[1024 i + r, kx] · W[1024 j + s, kx] :

  tile k adds the stretch [1024 k, 1024 (k + 1)) of the contraction axis to what the point before left, and the
  first of the four points starts from zero (`scratch_eq`, by induction on the point; the stretches concatenate by
  `Finset.sum_range_add`, in any commutative monoid: no finiteness is used). At k = 3 the sum is the whole
  contraction, the body stores it into the output's block (i, j), and the 32 blocks written back tile the array
  (`final`): entry (a, b) of the output array is Σ_{kx < 4096} Q[a, kx] · W[b, kx].
-/
import proofs.«142483_j88905823027952_1_alg».proof.Proof.Accumulate
import proofs.«142483_j88905823027952_1_alg».proof.Proof.TileValue

noncomputable section

namespace Cert.KernelIdeal.Contraction

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Accumulate Cert.KernelIdeal.TileValue

variable (m : (ℓ : Loc nD τ sig) → Buf (Elt Ideal) ℓ)

/-! ## The two arrays at natural-number coordinates -/

/-- X at (a, k), the coordinates reduced modulo the extents. -/
def xN (c : Dev nD) (a k : ℕ) : EReal :=
  xarr m c (ix2 (⟨a % 8192, Nat.mod_lt _ (by decide)⟩ : Fin 8192) (⟨k % 4096, Nat.mod_lt _ (by decide)⟩ : Fin 4096))
/-- W at (b, k), likewise. -/
def wN (c : Dev nD) (b k : ℕ) : EReal :=
  warr m c (ix2 (⟨b % 4096, Nat.mod_lt _ (by decide)⟩ : Fin 4096) (⟨k % 4096, Nat.mod_lt _ (by decide)⟩ : Fin 4096))
/-- Q at (a, k): entry k of row a quantized within its group of 64. -/
def qN (c : Dev nD) (a k : ℕ) : EReal :=
  GroupQuant.quant (fun e => xN m c a (k / 64 * 64 + e.val)) ⟨k % 64, Nat.mod_lt _ (by decide)⟩
/-- One term of the contraction. -/
def term (c : Dev nD) (a b k : ℕ) : EReal := qN m c a k * wN m c b k

/-! ## The windows' block indices, decided over the grid -/

theorem index_x : ∀ t : Fin cfg0.N, win0_0.index t (0 : Fin 2) = t.val / 16 ∧ win0_0.index t (1 : Fin 2) = t.val % 4 :=
  (by decide +kernel : ∀ t : Fin grid0.N, win0_0.index t (0 : Fin 2) = t.val / 16 ∧ win0_0.index t (1 : Fin 2) = t.val % 4)
theorem index_w : ∀ t : Fin cfg0.N, win0_1.index t (0 : Fin 2) = t.val / 4 % 4 ∧ win0_1.index t (1 : Fin 2) = t.val % 4 :=
  (by decide +kernel : ∀ t : Fin grid0.N, win0_1.index t (0 : Fin 2) = t.val / 4 % 4 ∧ win0_1.index t (1 : Fin 2) = t.val % 4)
theorem index_o : ∀ t : Fin cfg0.N, win0_2.index t (0 : Fin 2) = t.val / 16 ∧ win0_2.index t (1 : Fin 2) = t.val / 4 % 4 :=
  (by decide +kernel : ∀ t : Fin grid0.N, win0_2.index t (0 : Fin 2) = t.val / 16 ∧ win0_2.index t (1 : Fin 2) = t.val / 4 % 4)

/-- The x-tile at point t, at (r, k): X at (1024 (t / 16) + r, 1024 (t % 4) + k). -/
theorem xblk_apply (c : Dev nD) (t : Fin cfg0.N) (r k : Fin 1024) :
    xblk m c t (ix2 r k) = xN m c (t.val / 16 * 1024 + r.val) (t.val % 4 * 1024 + k.val) := by
  have hN : t.val < 128 := lt_of_lt_of_eq t.isLt (show cfg0.N = 128 from N_0)
  obtain ⟨e0, e1⟩ := index_x t
  unfold xN
  show iblk m c 0 t (ix2 r k) = _
  unfold iblk
  rw [View.read_apply]
  show V m c main_v13 _ = V m c main_v13 _
  refine congrArg (V m c main_v13) (funext fun a => Fin.ext ?_)
  match a with
  | ⟨0, _⟩ => show win0_0.index t (0 : Fin 2) * 1024 + 1 * r.val = (t.val / 16 * 1024 + r.val) % 8192; rw [e0]; omega
  | ⟨1, _⟩ => show win0_0.index t (1 : Fin 2) * 1024 + 1 * k.val = (t.val % 4 * 1024 + k.val) % 4096; rw [e1]; omega

/-- The w-tile at point t, at (s, k): W at (1024 (t / 4 % 4) + s, 1024 (t % 4) + k). -/
theorem wblk_apply (c : Dev nD) (t : Fin cfg0.N) (s k : Fin 1024) :
    wblk m c t (ix2 s k) = wN m c (t.val / 4 % 4 * 1024 + s.val) (t.val % 4 * 1024 + k.val) := by
  have hN : t.val < 128 := lt_of_lt_of_eq t.isLt (show cfg0.N = 128 from N_0)
  obtain ⟨e0, e1⟩ := index_w t
  unfold wN
  show iblk m c 1 t (ix2 s k) = _
  unfold iblk
  rw [View.read_apply]
  show V m c main_v12 _ = V m c main_v12 _
  refine congrArg (V m c main_v12) (funext fun a => Fin.ext ?_)
  match a with
  | ⟨0, _⟩ => show win0_1.index t (0 : Fin 2) * 1024 + 1 * s.val = (t.val / 4 % 4 * 1024 + s.val) % 4096; rw [e0]; omega
  | ⟨1, _⟩ => show win0_1.index t (1 : Fin 2) * 1024 + 1 * k.val = (t.val % 4 * 1024 + k.val) % 4096; rw [e1]; omega

/-! ## One tile of the contraction -/

/-- The tile's sum at point t is the stretch [1024 (t % 4), 1024 (t % 4 + 1)) of the contraction. -/
theorem tile_sum (c : Dev nD) (t : Fin cfg0.N) (r s : Fin 1024) :
    ∑ k : Fin 1024, qtile (F := Ideal) (xblk m c t) (ix2 r k) * wblk m c t (ix2 s k)
      = ∑ kk ∈ Finset.range 1024, term m c (t.val / 16 * 1024 + r.val) (t.val / 4 % 4 * 1024 + s.val) (t.val % 4 * 1024 + kk) := by
  have hN : t.val < 128 := lt_of_lt_of_eq t.isLt (show cfg0.N = 128 from N_0)
  rw [← Fin.sum_univ_eq_sum_range (fun kk => term m c (t.val / 16 * 1024 + r.val) (t.val / 4 % 4 * 1024 + s.val) (t.val % 4 * 1024 + kk)) 1024]
  refine Finset.sum_congr rfl fun k _ => ?_
  have hk : k.val < 1024 := k.isLt
  rw [qtile_apply, wblk_apply]
  unfold term qN
  refine congrArg (· * wN m c (t.val / 4 % 4 * 1024 + s.val) (t.val % 4 * 1024 + k.val)) ?_
  have hg : group (xblk m c t) r (grpOf k)
      = fun e : Fin 64 => xN m c (t.val / 16 * 1024 + r.val) ((t.val % 4 * 1024 + k.val) / 64 * 64 + e.val) := funext fun e => by
    have he : e.val < 64 := e.isLt
    show xblk m c t (ix2 r (col (grpOf k) e)) = _
    rw [xblk_apply]
    refine congrArg (xN m c (t.val / 16 * 1024 + r.val)) ?_
    show t.val % 4 * 1024 + (k.val / 64 * 64 + e.val) = (t.val % 4 * 1024 + k.val) / 64 * 64 + e.val
    omega
  have hp : placeOf k = (⟨(t.val % 4 * 1024 + k.val) % 64, Nat.mod_lt _ (by decide)⟩ : Fin 64) :=
    Fin.ext (by show k.val % 64 = (t.val % 4 * 1024 + k.val) % 64; omega)
  rw [hg, hp]

/-- The zero block the reset stores. -/
theorem zero_apply (y : S1024x1024.Idx) : k0_pay1 (F := Ideal) y = 0 := by
  unfold k0_pay1
  rw [shapeCast_self]
  exact Ideal.ofBits_zero_f32

/-- After point t, at (r, s): what the scratch held there plus the tile's stretch. -/
theorem scratch_point (c : Dev nD) (t : Fin cfg0.N) (r s : Fin 1024) :
    (outsAt0 m c t.val t.isLt).2 (ix2 r s)
      = held m c t (ix2 r s)
        + ∑ kk ∈ Finset.range 1024, term m c (t.val / 16 * 1024 + r.val) (t.val / 4 % 4 * 1024 + s.val) (t.val % 4 * 1024 + kk) := by
  rw [scratch_step m c t, tile_apply, tile_sum]

/-! ## The accumulation, by induction on the point -/

/-- After point n = (i, j, k) the scratch holds, at (r, s), the contraction over the first 1024 (k + 1) indices. -/
theorem scratch_eq (c : Dev nD) (n : ℕ) : ∀ (hn : n < cfg0.N) (r s : Fin 1024),
    (outsAt0 m c n hn).2 (ix2 r s)
      = ∑ kx ∈ Finset.range ((n % 4 + 1) * 1024), term m c (n / 16 * 1024 + r.val) (n / 4 % 4 * 1024 + s.val) kx := by
  induction n with
  | zero =>
    intro hn r s
    refine (scratch_point m c ⟨0, hn⟩ r s).trans ?_
    show held m c ⟨0, hn⟩ (ix2 r s) + ∑ kk ∈ Finset.range 1024, term m c (0 / 16 * 1024 + r.val) (0 / 4 % 4 * 1024 + s.val) (0 % 4 * 1024 + kk) = _
    have hh : held m c ⟨0, hn⟩ (ix2 r s) = 0 := by
      unfold held; rw [if_pos (show (⟨0, hn⟩ : Fin cfg0.N).val % 4 = 0 from rfl)]; exact zero_apply _
    rw [hh, zero_add]
    refine Finset.sum_congr rfl fun kk _ => ?_
    congr 1
    omega
  | succ n ih =>
    intro hn r s
    have hN : n + 1 < 128 := lt_of_lt_of_eq hn (show cfg0.N = 128 from N_0)
    refine (scratch_point m c ⟨n + 1, hn⟩ r s).trans ?_
    show held m c ⟨n + 1, hn⟩ (ix2 r s) + ∑ kk ∈ Finset.range 1024, term m c ((n + 1) / 16 * 1024 + r.val) ((n + 1) / 4 % 4 * 1024 + s.val) ((n + 1) % 4 * 1024 + kk) = _
    by_cases h0 : (n + 1) % 4 = 0
    · have hh : held m c ⟨n + 1, hn⟩ (ix2 r s) = 0 := by
        unfold held; rw [if_pos (show (⟨n + 1, hn⟩ : Fin cfg0.N).val % 4 = 0 from h0)]; exact zero_apply _
      rw [hh, zero_add, h0]
      refine Finset.sum_congr rfl fun kk _ => ?_
      congr 1
      omega
    · have hh : held m c ⟨n + 1, hn⟩ (ix2 r s) = (outsAt0 m c n (Nat.lt_of_succ_lt hn)).2 (ix2 r s) := by
        unfold held; rw [if_neg (show ¬(⟨n + 1, hn⟩ : Fin cfg0.N).val % 4 = 0 from h0)]; rfl
      rw [hh, ih (Nat.lt_of_succ_lt hn) r s]
      have e1 : n / 16 = (n + 1) / 16 := by omega
      have e2 : n / 4 % 4 = (n + 1) / 4 % 4 := by omega
      have e3 : (n % 4 + 1) * 1024 = (n + 1) % 4 * 1024 := by omega
      have e4 : ((n + 1) % 4 + 1) * 1024 = (n + 1) % 4 * 1024 + 1024 := by omega
      rw [e1, e2, e3, e4, Finset.sum_range_add]

/-- The same at any index of the block. -/
theorem scratch_eq' (c : Dev nD) (t : Fin cfg0.N) (y : S1024x1024.Idx) :
    (outsAt0 m c t.val t.isLt).2 y
      = ∑ kx ∈ Finset.range ((t.val % 4 + 1) * 1024), term m c (t.val / 16 * 1024 + (y 0).val) (t.val / 4 % 4 * 1024 + (y 1).val) kx := by
  obtain ⟨r, s, rfl⟩ : ∃ (r s : Fin 1024), y = ix2 r s := ⟨y 0, y 1, eq_ix2 y⟩
  exact scratch_eq m c t.val t.isLt r s

/-! ## From the blocks written back to the array -/

/-- The output array after the region: at (a, b) the whole contraction Σ_{kx < 4096} Q[a, kx] · W[b, kx]. -/
def out (c : Dev nD) : Vec Ideal S8192x4096 .f32 :=
  fun y => ∑ kx ∈ Finset.range 4096, term m c (y 0).val (y 1).val kx

/-- What a point writes back (only the last of every four does) is its block of `out`. -/
theorem flushed_eq (c : Dev nD) (t : Fin cfg0.N) (hf : (cfg0.win 2).flush t = true) :
    (dats m 0 c).flushed 2 t = ((cfg0.win 2).blk t).view.read (Elt Ideal) (out m c) := by
  have hN : t.val < 128 := lt_of_lt_of_eq t.isLt (show cfg0.N = 128 from N_0)
  have h3 : t.val % 4 = 3 := (flush0_2 t).mp hf
  obtain ⟨e0, e1⟩ := index_o t
  show (cfg0.win 2).cut (grid0.coords t) ((dats m 0 c).after 2 t) = _
  rw [after0_2, output_last m c t h3]
  funext j
  refine (scratch_eq' m c t j).trans ?_
  show _ = out m c (((cfg0.win 2).blk t).view.emb j)
  have a0 : ((((cfg0.win 2).blk t).view.emb j) 0).val = t.val / 16 * 1024 + (j 0).val := by
    show win0_2.index t (0 : Fin 2) * 1024 + 1 * (j 0).val = _; rw [e0]; omega
  have a1 : ((((cfg0.win 2).blk t).view.emb j) 1).val = t.val / 4 % 4 * 1024 + (j 1).val := by
    show win0_2.index t (1 : Fin 2) * 1024 + 1 * (j 1).val = _; rw [e1]; omega
  unfold out
  rw [h3, a0, a1]

/-- An index of the array is in point t's block iff each coordinate is in the block's range on its axis. -/
theorem mem_block (t : Fin cfg0.N) (i : S8192x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v14).slice (win0_2.rect t)).set ↔ _
  rw [View.set_slice_whole, Rect.mem_set_unit]
  exact Iff.rfl

/-- The blocks written back tile the array: (a, b) lies in the block of the point (a / 1024, b / 1024, 3). -/
theorem cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hN : cfg0.N = 128 := N_0
  let t : Fin cfg0.N := ⟨(i 0).val / 1024 * 16 + (i 1).val / 1024 * 4 + 3, by rw [hN]; omega⟩
  have ht : t.val = (i 0).val / 1024 * 16 + (i 1).val / 1024 * 4 + 3 := rfl
  obtain ⟨e0, e1⟩ := index_o t
  refine ⟨t, (flush0_2 t).mpr (by rw [ht]; omega), ?_⟩
  rw [mem_block]
  intro a
  match a with
  | ⟨0, _⟩ => show win0_2.index t (0 : Fin 2) * 1024 ≤ (i 0).val ∧ (i 0).val < win0_2.index t (0 : Fin 2) * 1024 + 1024; rw [e0, ht]; omega
  | ⟨1, _⟩ => show win0_2.index t (1 : Fin 2) * 1024 ≤ (i 1).val ∧ (i 1).val < win0_2.index t (1 : Fin 2) * 1024 + 1024; rw [e1, ht]; omega

/-- So the output array ends holding the whole contraction. -/
theorem final (c : Dev nD) : (dats m 0 c).arrAt 2 cfg0.N = out m c :=
  (dats m 0 c).arrAt_eq_of_cover 2 (out m c) (flushed_eq m c) cover

end Cert.KernelIdeal.Contraction

end
-- ==== Proof.LibTypedRefCasts.lean ====
/-
  Typed references of a module-local function: their casts compose to the identity.

  A value passed into or out of a function the compiler outlined (`jnp.clip`, `jnp.round`) is read and written through a
  typed reference, which transports contents between the value's type and the buffer's type along the equation of the two.
  Written and then read through the SAME reference, the two transports cancel, whatever the reference is.
-/
import Idealize.ShloMosaic.Lib.StableHlo

namespace Idealize.ShloMosaic.StableHlo.TRef

variable {sig : RefSig} {T : BufTy} {Val : EltTy → Type}

/-- Contents written through a typed reference and read back through it are unchanged. -/
theorem ofBuf_toBuf (x : TRef sig T) (v : T.Contents Val) : x.ofBuf (x.toBuf v) = v := by
  obtain ⟨r, h, h2, h3⟩ := x
  subst h
  rfl

/-- Contents read through a typed reference and written back through it are unchanged. -/
theorem toBuf_ofBuf (x : TRef sig T) (v : x.ref.ty.Contents Val) : x.toBuf (x.ofBuf v) = v := by
  obtain ⟨r, h, h2, h3⟩ := x
  subst h
  rfl

end Idealize.ShloMosaic.StableHlo.TRef
-- ==== Proof.KernelRun.lean ====
/-
  The idealized kernel's run, read: what its result holds as a function of the two arguments.

  Before the region the host reshapes the activations [4, 2048, 4096] to X : [8192, 4096] and computes the ternary
  weights W = bf16( clip(round(w / s), -1, 1) · s ), with s = max(ε, mean_row |w|) kept as a column and the mean taken as
  the row's sum divided by 4096. After the region it reshapes the output array [8192, 4096] back to [4, 2048, 4096].
  With the whole-contraction form of the output array (Contraction.final) the result is the reshape of
  (a, b) ↦ Σ_{kx < 4096} Q[a, kx] · W[b, kx].
-/
import proofs.«142483_j88905823027952_1_alg».proof.Proof.Contraction
import proofs.«142483_j88905823027952_1_alg».proof.Proof.LibTypedRefCasts
import Idealize.ShloMosaic.Lib.StableHlo.Run

noncomputable section

namespace Cert.KernelIdeal.KernelRun

open Idealize.ShloMosaic Idealize.ShloMosaic.TcCoe Idealize.SL.Sem Idealize.ShloMosaic.StableHlo
open Cert.KernelIdeal Cert.KernelIdeal.Gen Cert.KernelIdeal.Accumulate

section AnyInstance
variable {F : FTy → Type} [FloatOps F]
variable (m : (ℓ : Loc nD τ sig) → Buf (Elt F) ℓ)

/-- The per-row scale of the weights, as a column: `max(ε, (Σ_row |w|) / 4096)`. -/
def rowScale (w : FVec F S4096x4096 .f32) : FVec F S4096x1 .f32 :=
  maximumf (broadcastInDim S4096x1 ![] bcast_S_S4096x1 (id (constant (F := F) S_ .f32 0x3727C5AC#32)))
    (Host.divf
      (broadcastInDim S4096x1 ![0] bcast_S4096_S4096x1_0
        (Host.reduceAdd (Host.absf w) (constant (F := F) S_ .f32 0x00000000#32) reducesTo_S4096x4096_S4096_d1 h_S_))
      (broadcastInDim S4096x1 ![] bcast_S_S4096x1 (constant (F := F) S_ .f32 0x45800000#32)))

/-- The ternary weights before the cast to bf16: `clip(round(w / s), -1, 1) · s`. -/
def ternary (w : FVec F S4096x4096 .f32) : FVec F S4096x4096 .f32 :=
  mulf
    (minimumf (broadcastInDim S4096x4096 ![] bcast_S_S4096x4096 (id (constant (F := F) S_ .f32 0x3F800000#32)))
      (maximumf (broadcastInDim S4096x4096 ![] bcast_S_S4096x4096 (id (constant (F := F) S_ .f32 0xBF800000#32)))
        (Host.roundeven (Host.divf w (broadcastInDim S4096x4096 ![0, 1] bcast_S4096x1_S4096x4096_0_1 (rowScale w))))))
    (broadcastInDim S4096x4096 ![0, 1] bcast_S4096x1_S4096x4096_0_1 (rowScale w))

/-- X is the activations reshaped. -/
theorem x_eq (c : Dev nD) :
    xarr m c = shapeCast S8192x4096 (m ((c : Thread nD τ).loc main_arg0)) shapeCasts_S4x2048x4096_S8192x4096 := by
  show V m c main_v13 = _
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

/-! The outlined `clip`, `round` and `clip` read the surrounding program's buffers, and leave their results for it, through
    typed references at these seven buffers; at a literal buffer the transport is the identity. -/
theorem ofBuf_main_cst_1 (h1 : main_cst_1.ty = ⟨S_, .f32⟩) (h2 : main_cst_1.space ≠ .host) (h3 : main_cst_1.isScoped = false)
    (v : (⟨S_, .f32⟩ : BufTy).Contents (Elt F)) : (TRef.of (T := ⟨S_, .f32⟩) main_cst_1 h1 h2 h3).ofBuf v = v := rfl
theorem ofBuf_main_v4 (h1 : main_v4.ty = ⟨S4096x1, .f32⟩) (h2 : main_v4.space ≠ .host) (h3 : main_v4.isScoped = false)
    (v : (⟨S4096x1, .f32⟩ : BufTy).Contents (Elt F)) : (TRef.of (T := ⟨S4096x1, .f32⟩) main_v4 h1 h2 h3).ofBuf v = v := rfl
theorem toBuf_main_v5 (h1 : main_v5.ty = ⟨S4096x1, .f32⟩) (h2 : main_v5.space ≠ .host) (h3 : main_v5.isScoped = false)
    (v : (⟨S4096x1, .f32⟩ : BufTy).Contents (Elt F)) : (TRef.of (T := ⟨S4096x1, .f32⟩) main_v5 h1 h2 h3).toBuf v = v := rfl
theorem ofBuf_main_v7 (h1 : main_v7.ty = ⟨S4096x4096, .f32⟩) (h2 : main_v7.space ≠ .host) (h3 : main_v7.isScoped = false)
    (v : (⟨S4096x4096, .f32⟩ : BufTy).Contents (Elt F)) : (TRef.of (T := ⟨S4096x4096, .f32⟩) main_v7 h1 h2 h3).ofBuf v = v := rfl
theorem ofBuf_main_cst_2 (h1 : main_cst_2.ty = ⟨S_, .f32⟩) (h2 : main_cst_2.space ≠ .host) (h3 : main_cst_2.isScoped = false)
    (v : (⟨S_, .f32⟩ : BufTy).Contents (Elt F)) : (TRef.of (T := ⟨S_, .f32⟩) main_cst_2 h1 h2 h3).ofBuf v = v := rfl
theorem ofBuf_main_cst_3 (h1 : main_cst_3.ty = ⟨S_, .f32⟩) (h2 : main_cst_3.space ≠ .host) (h3 : main_cst_3.isScoped = false)
    (v : (⟨S_, .f32⟩ : BufTy).Contents (Elt F)) : (TRef.of (T := ⟨S_, .f32⟩) main_cst_3 h1 h2 h3).ofBuf v = v := rfl
theorem toBuf_main_v9 (h1 : main_v9.ty = ⟨S4096x4096, .f32⟩) (h2 : main_v9.space ≠ .host) (h3 : main_v9.isScoped = false)
    (v : (⟨S4096x4096, .f32⟩ : BufTy).Contents (Elt F)) : (TRef.of (T := ⟨S4096x4096, .f32⟩) main_v9 h1 h2 h3).toBuf v = v := rfl

/-- W is the ternary weights narrowed to bf16. -/
theorem w_eq (c : Dev nD) :
    warr m c = truncf .bf16 (ternary (m ((c : Thread nD τ).loc main_arg1))) bitsLt_bf16_f32 := by
  show V m c main_v12 = _
  unfold ternary rowScale
  dsimp only [V, V0]
  simp only [hostOps0, hostOps0_1, hostOps0_2, hostOps0_3, hostOps0_4, hostOps0_5, hostOps0_6, List.flatten_cons,
    List.flatten_nil, List.append_nil, List.cons_append, List.nil_append]
  after_results
  simp only [TRef.ofBuf_toBuf, ofBuf_main_cst_1, ofBuf_main_v4, toBuf_main_v5, ofBuf_main_v7, ofBuf_main_cst_2,
    ofBuf_main_cst_3, toBuf_main_v9]

/-- The result is the output array reshaped to [4, 2048, 4096]. -/
theorem result_eq (c : Dev nD) :
    Pipeline.afterTail₀ cfgs (dats m) 0 (V0 m) [hostOps1] c main_v15
      = shapeCast S4x2048x4096 ((dats m 0 c).arrAt 2 cfg0.N) shapeCasts_S8192x4096_S4x2048x4096 := by
  unfold Pipeline.afterTail₀
  show StableHlo.after hostOps1 _ (Proc.devRef .tc main_v15) = _
  after_results
  rw [Pipeline.withArrays_arr spec0 launch0.win.arr_inj c _ _ 2]
  generalize (dats m 0 c).arrAt 2 cfg0.N = A
  rfl

end AnyInstance

variable (m : (ℓ : Loc nD τ sig) → Buf (Elt Ideal) ℓ) (ρ : Dev nD → PrngReg)

/-- The kernel's result over the extended reals. -/
def result (c : Dev nD) : Buf (Elt Ideal) ((c.tc : Thread nD τ).loc main_v15) :=
  shapeCast S4x2048x4096 (Contraction.out m c) shapeCasts_S8192x4096_S4x2048x4096

/-- Every weakly fair execution of the idealized kernel terminates with its result at `result` and the arguments unchanged. -/
theorem run : θ_run defs (onTc (τ := τ) (main (F := Ideal))) ⟨m, fun _ => 0, ρ⟩ fun r => ∀ c : Dev nD,
      r.2.mem ((c.tc : Thread nD τ).loc main_v15) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v15 (Pipeline.mem_restRefs_of main_v15 (by decide) (by decide))).trans
        ((result_eq m c).trans (by rw [Contraction.final]; rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KernelRun

end
-- ==== Proof.RefCasts.lean ====
/-
  The reference's outlined functions (`jnp.clip` twice on each side, `jnp.round`) read the surrounding program's buffers, and
  leave their results for it, through typed references. At each of these fourteen literal buffers the buffer's type IS the
  value's type, so the transport along that equation is the identity. (Inside a function, a value written and read back
  through one reference needs no such fact: Proof/LibTypedRefCasts.lean.)
-/
import proofs.«142483_j88905823027952_1_alg».proof.Proof.Gen.ReferenceIdeal
import Idealize.ShloMosaic.Lib.StableHlo

noncomputable section

namespace Cert.ReferenceIdeal.RefCasts

open Idealize.ShloMosaic Idealize.ShloMosaic.StableHlo Cert.ReferenceIdeal

variable {F : FTy → Type} [FloatOps F]

/-! The activations' branch: `clip(absmax, ε)`, `round`, `clip(·, -127, 127)`. -/
theorem ofBuf_main_cst_0 (h1 : main_cst_0.ty = ⟨S_, .f32⟩) (h2 : main_cst_0.space ≠ .host) (h3 : main_cst_0.isScoped = false)
    (v : (⟨S_, .f32⟩ : BufTy).Contents (Elt F)) : (TRef.of (T := ⟨S_, .f32⟩) main_cst_0 h1 h2 h3).ofBuf v = v := rfl
theorem ofBuf_main_v3 (h1 : main_v3.ty = ⟨S4x2048x64x1, .f32⟩) (h2 : main_v3.space ≠ .host) (h3 : main_v3.isScoped = false)
    (v : (⟨S4x2048x64x1, .f32⟩ : BufTy).Contents (Elt F)) : (TRef.of (T := ⟨S4x2048x64x1, .f32⟩) main_v3 h1 h2 h3).ofBuf v = v := rfl
theorem toBuf_main_v4 (h1 : main_v4.ty = ⟨S4x2048x64x1, .f32⟩) (h2 : main_v4.space ≠ .host) (h3 : main_v4.isScoped = false)
    (v : (⟨S4x2048x64x1, .f32⟩ : BufTy).Contents (Elt F)) : (TRef.of (T := ⟨S4x2048x64x1, .f32⟩) main_v4 h1 h2 h3).toBuf v = v := rfl
theorem ofBuf_main_v8 (h1 : main_v8.ty = ⟨S4x2048x64x64, .f32⟩) (h2 : main_v8.space ≠ .host) (h3 : main_v8.isScoped = false)
    (v : (⟨S4x2048x64x64, .f32⟩ : BufTy).Contents (Elt F)) : (TRef.of (T := ⟨S4x2048x64x64, .f32⟩) main_v8 h1 h2 h3).ofBuf v = v := rfl
theorem ofBuf_main_cst_2 (h1 : main_cst_2.ty = ⟨S_, .f32⟩) (h2 : main_cst_2.space ≠ .host) (h3 : main_cst_2.isScoped = false)
    (v : (⟨S_, .f32⟩ : BufTy).Contents (Elt F)) : (TRef.of (T := ⟨S_, .f32⟩) main_cst_2 h1 h2 h3).ofBuf v = v := rfl
theorem ofBuf_main_cst_3 (h1 : main_cst_3.ty = ⟨S_, .f32⟩) (h2 : main_cst_3.space ≠ .host) (h3 : main_cst_3.isScoped = false)
    (v : (⟨S_, .f32⟩ : BufTy).Contents (Elt F)) : (TRef.of (T := ⟨S_, .f32⟩) main_cst_3 h1 h2 h3).ofBuf v = v := rfl
theorem toBuf_main_v10 (h1 : main_v10.ty = ⟨S4x2048x64x64, .f32⟩) (h2 : main_v10.space ≠ .host) (h3 : main_v10.isScoped = false)
    (v : (⟨S4x2048x64x64, .f32⟩ : BufTy).Contents (Elt F)) : (TRef.of (T := ⟨S4x2048x64x64, .f32⟩) main_v10 h1 h2 h3).toBuf v = v := rfl

/-! The weights' branch: `clip(mean, ε)`, `round`, `clip(·, -1, 1)`. -/
theorem ofBuf_main_cst_6 (h1 : main_cst_6.ty = ⟨S_, .f32⟩) (h2 : main_cst_6.space ≠ .host) (h3 : main_cst_6.isScoped = false)
    (v : (⟨S_, .f32⟩ : BufTy).Contents (Elt F)) : (TRef.of (T := ⟨S_, .f32⟩) main_cst_6 h1 h2 h3).ofBuf v = v := rfl
theorem ofBuf_main_v20 (h1 : main_v20.ty = ⟨S4096x1, .f32⟩) (h2 : main_v20.space ≠ .host) (h3 : main_v20.isScoped = false)
    (v : (⟨S4096x1, .f32⟩ : BufTy).Contents (Elt F)) : (TRef.of (T := ⟨S4096x1, .f32⟩) main_v20 h1 h2 h3).ofBuf v = v := rfl
theorem toBuf_main_v21 (h1 : main_v21.ty = ⟨S4096x1, .f32⟩) (h2 : main_v21.space ≠ .host) (h3 : main_v21.isScoped = false)
    (v : (⟨S4096x1, .f32⟩ : BufTy).Contents (Elt F)) : (TRef.of (T := ⟨S4096x1, .f32⟩) main_v21 h1 h2 h3).toBuf v = v := rfl
theorem ofBuf_main_v23 (h1 : main_v23.ty = ⟨S4096x4096, .f32⟩) (h2 : main_v23.space ≠ .host) (h3 : main_v23.isScoped = false)
    (v : (⟨S4096x4096, .f32⟩ : BufTy).Contents (Elt F)) : (TRef.of (T := ⟨S4096x4096, .f32⟩) main_v23 h1 h2 h3).ofBuf v = v := rfl
theorem ofBuf_main_cst_7 (h1 : main_cst_7.ty = ⟨S_, .f32⟩) (h2 : main_cst_7.space ≠ .host) (h3 : main_cst_7.isScoped = false)
    (v : (⟨S_, .f32⟩ : BufTy).Contents (Elt F)) : (TRef.of (T := ⟨S_, .f32⟩) main_cst_7 h1 h2 h3).ofBuf v = v := rfl
theorem ofBuf_main_cst_8 (h1 : main_cst_8.ty = ⟨S_, .f32⟩) (h2 : main_cst_8.space ≠ .host) (h3 : main_cst_8.isScoped = false)
    (v : (⟨S_, .f32⟩ : BufTy).Contents (Elt F)) : (TRef.of (T := ⟨S_, .f32⟩) main_cst_8 h1 h2 h3).ofBuf v = v := rfl
theorem toBuf_main_v25 (h1 : main_v25.ty = ⟨S4096x4096, .f32⟩) (h2 : main_v25.space ≠ .host) (h3 : main_v25.isScoped = false)
    (v : (⟨S4096x4096, .f32⟩ : BufTy).Contents (Elt F)) : (TRef.of (T := ⟨S4096x4096, .f32⟩) main_v25 h1 h2 h3).toBuf v = v := rfl

end Cert.ReferenceIdeal.RefCasts

end
-- ==== Proof.RefValue.lean ====
/-
  The reference's value at an index, over the extended reals.

  The reference views the activations [4, 2048, 4096] as [4, 2048, 64, 64]: entry k of the row of token (b, s) lies in
  group k / 64 at place k % 64, and is replaced by the group's quantizer at that place (GroupQuant.quant: the same
  constants, rounding and clipping as the kernel's tile). Its two straight-through wrappers `v + (q - v)` return `q` where
  the wrapped argument is a real number. Its result at (b, s, o) is the contraction over the 4096 entries of row (b, s)
  of the quantized activations with row o of the ternary weights.
-/
import proofs.«142483_j88905823027952_1_alg».proof.Proof.RefRead
import proofs.«142483_j88905823027952_1_alg».proof.Proof.GroupQuant
import Idealize.ShloMosaic.PureOps.Reduce
import Idealize.ShloMosaic.PureOps.Ideal.Laws
import Idealize.ShloMosaic.Lib.ValueIdx

noncomputable section

namespace Cert.ReferenceIdeal.RefValue

open Idealize.ShloMosaic Idealize.ShloMosaic.ValueIdx Cert.ReferenceIdeal Cert.ReferenceIdeal.Gen Cert.ReferenceIdeal.ReadP

variable (x0 : (⟨S4x2048x4096, .f32⟩ : BufTy).Contents (Elt Ideal))

/-- Place e of group g, as an entry of the row: 64 g + e. -/
abbrev entry (g e : Fin 64) : Fin 4096 := ⟨g.val * 64 + e.val, by have := g.isLt; have := e.isLt; omega⟩
/-- The 64 entries of group g of the row of token (b, s). -/
abbrev group (b : Fin 4) (s : Fin 2048) (g : Fin 64) : Fin 64 → EReal := fun e => x0 (ix3 b s (entry g e))

theorem reduces : S4x2048x64x64.Reduces [3] S4x2048x64 := by decide

/-- The [4, 2048, 64, 64] view at (b, s, g, e) is the argument at (b, s, 64 g + e). -/
theorem view_apply (b : Fin 4) (s : Fin 2048) (g e : Fin 64) :
    val_main_v0 (F := Ideal) x0 (ix4 b s g e) = x0 (ix3 b s (entry g e)) := by
  rw [val_main_v0_apply]
  refine congrArg x0 (funext fun a => Fin.ext ?_)
  have hb := b.isLt; have hs := s.isLt; have hg := g.isLt; have he := e.isLt
  match a with
  | ⟨0, _⟩ => show (((b.val * 2048 + s.val) * 64 + g.val) * 64 + e.val) / 8388608 = b.val; omega
  | ⟨1, _⟩ => show (((b.val * 2048 + s.val) * 64 + g.val) * 64 + e.val) / 4096 % 2048 = s.val; omega
  | ⟨2, _⟩ => show (((b.val * 2048 + s.val) * 64 + g.val) * 64 + e.val) % 4096 = g.val * 64 + e.val; omega

/-- The maximum over the last axis at (b, s, g) is the group's largest absolute value. -/
theorem absmax_apply (b : Fin 4) (s : Fin 2048) (g : Fin 64) :
    val_main_v2 (F := Ideal) x0 (ix3 b s g) = GroupQuant.absmax (group x0 b s g) := by
  unfold val_main_v2
  refine (Host.reduce_eq_fold_single (FloatOps.maximumf (F := Ideal) (φ := .f32)) (val_main_v1 (F := Ideal) x0)
    (val_main_cst (F := Ideal)) reducesTo_S4x2048x64x64_S4x2048x64_d3 reduces h_S_ (ix3 b s g)).trans ?_
  unfold GroupQuant.absmax
  refine congrArg (fun f => (Finset.univ : Finset (Fin 64)).fold max (Ideal.ofBits .f32 0xFF800000#32) f) (funext fun (e : Fin 64) => ?_)
  have hl : reduces.lift (ix3 b s g) e = ix4 b s g e := funext fun a => Fin.ext (by
    match a with
    | ⟨0, _⟩ => rfl
    | ⟨1, _⟩ => rfl
    | ⟨2, _⟩ => rfl
    | ⟨3, _⟩ => rfl)
  show max (val_main_v0 (F := Ideal) x0 (reduces.lift (ix3 b s g) e)) (-(val_main_v0 (F := Ideal) x0 (reduces.lift (ix3 b s g) e))) = _
  rw [hl, view_apply]

/-- The scale at (b, s, g, 0) is the group's scale. -/
theorem scale_apply (b : Fin 4) (s : Fin 2048) (g : Fin 64) (o : Fin 1) :
    val_main_v6 (F := Ideal) x0 (ix4 b s g o) = GroupQuant.scale (group x0 b s g) := by
  have hi : idx_main_v3 (ix4 b s g o) = ix3 b s g := funext fun a => Fin.ext (by
    match a with
    | ⟨0, _⟩ => rfl
    | ⟨1, _⟩ => rfl
    | ⟨2, _⟩ => rfl)
  rw [val_main_v6_apply, val_main_v5_apply, val_main_cst_1_apply, val_main_v4_apply, val_main_call0_v1_apply,
    val_main_call0_v0_apply, val_main_cst_0_apply, val_main_v3_apply, hi, absmax_apply]
  rfl

/-- The quantized view at (b, s, g, e) is the group's quantizer at place e. -/
theorem quant_apply (b : Fin 4) (s : Fin 2048) (g e : Fin 64) :
    val_main_v12 (F := Ideal) x0 (ix4 b s g e) = GroupQuant.quant (group x0 b s g) e := by
  have h7 : idx_main_v7 (ix4 b s g e) = ix4 b s g (0 : Fin 1) := funext fun a => Fin.ext (by
    match a with
    | ⟨0, _⟩ => rfl
    | ⟨1, _⟩ => rfl
    | ⟨2, _⟩ => rfl
    | ⟨3, _⟩ => rfl)
  have h11 : idx_main_v11 (ix4 b s g e) = ix4 b s g (0 : Fin 1) := funext fun a => Fin.ext (by
    match a with
    | ⟨0, _⟩ => rfl
    | ⟨1, _⟩ => rfl
    | ⟨2, _⟩ => rfl
    | ⟨3, _⟩ => rfl)
  rw [val_main_v12_apply, val_main_v10_apply, val_main_call2_v4_apply, val_main_call2_v3_apply, val_main_cst_3_apply,
    val_main_call2_v2_apply, val_main_call2_v1_apply, val_main_call2_v0_apply, val_main_cst_2_apply, val_main_v9_apply,
    val_main_v8_apply, val_main_v7_apply, val_main_v11_apply, h7, h11, scale_apply, view_apply]
  rfl

/-- The group an entry of the row lies in, and its place there. -/
abbrev grpOf (k : Fin 4096) : Fin 64 := ⟨k.val / 64, by have := k.isLt; omega⟩
abbrev placeOf (k : Fin 4096) : Fin 64 := ⟨k.val % 64, Nat.mod_lt _ (by decide)⟩

/-- The quantized activations at (b, s, k). -/
theorem xq_apply (b : Fin 4) (s : Fin 2048) (k : Fin 4096) :
    val_main_v13 (F := Ideal) x0 (ix3 b s k) = GroupQuant.quant (group x0 b s (grpOf k)) (placeOf k) := by
  have hb := b.isLt; have hs := s.isLt; have hk := k.isLt
  have hi : idx_main_v13 (ix3 b s k) = ix4 b s (grpOf k) (placeOf k) := funext fun a => Fin.ext (by
    match a with
    | ⟨0, _⟩ => show ((b.val * 2048 + s.val) * 4096 + k.val) / 8388608 = b.val; omega
    | ⟨1, _⟩ => show ((b.val * 2048 + s.val) * 4096 + k.val) / 4096 % 2048 = s.val; omega
    | ⟨2, _⟩ => show ((b.val * 2048 + s.val) * 4096 + k.val) / 64 % 64 = k.val / 64; omega
    | ⟨3, _⟩ => show ((b.val * 2048 + s.val) * 4096 + k.val) % 64 = k.val % 64; omega)
  rw [val_main_v13_apply, hi, quant_apply]

/-- Where the activations are real numbers the straight-through wrapper returns the quantized value. -/
theorem ste_x (hx : ∀ i, ∃ r : ℝ, x0 i = (r : EReal)) (i : S4x2048x4096.Idx) :
    val_main_v15 (F := Ideal) x0 i = val_main_v13 (F := Ideal) x0 i := by
  obtain ⟨r, hr⟩ := hx i
  rw [val_main_v15_apply, val_main_v14_apply]
  show x0 i + (val_main_v13 (F := Ideal) x0 i - x0 i) = _
  rw [hr]
  exact GroupQuant.add_sub_cancel_real r _

variable (x1 : (⟨S4096x4096, .f32⟩ : BufTy).Contents (Elt Ideal))

/-- Where the weights are real numbers theirs returns the ternary weights. -/
theorem ste_w (hw : ∀ i, ∃ r : ℝ, x1 i = (r : EReal)) (i : S4096x4096.Idx) :
    val_main_v29 (F := Ideal) x1 i = val_main_v27 (F := Ideal) x1 i := by
  obtain ⟨r, hr⟩ := hw i
  rw [val_main_v29_apply, val_main_v28_apply]
  show x1 i + (val_main_v27 (F := Ideal) x1 i - x1 i) = _
  rw [hr]
  exact GroupQuant.add_sub_cancel_real r _

/-- The result at (b, s, o): the contraction of row (b, s) of the wrapped activations with row o of the wrapped weights. -/
theorem result_apply (b : Fin 4) (s : Fin 2048) (o : Fin 4096) :
    val_main_v30 (F := Ideal) x0 x1 (ix3 b s o)
      = ∑ k : Fin 4096, val_main_v15 (F := Ideal) x0 (ix3 b s k) * val_main_v29 (F := Ideal) x1 (ix2 o k) := by
  rw [val_main_v30_apply]
  refine Finset.sum_congr rfl fun k _ => ?_
  have hl : lidx_main_v30 (ix3 b s o) k = ix3 b s k := funext fun a => Fin.ext (by
    match a with
    | ⟨0, _⟩ => rfl
    | ⟨1, _⟩ => rfl
    | ⟨2, _⟩ => rfl)
  have hr : ridx_main_v30 (ix3 b s o) k = ix2 o k := funext fun a => Fin.ext (by
    match a with
    | ⟨0, _⟩ => rfl
    | ⟨1, _⟩ => rfl)
  rw [hl, hr]

end Cert.ReferenceIdeal.RefValue

end
-- ==== Proof.FiniteInputs.lean ====
/-
  The precondition read back: every entry of both arguments is a real number.

  `finite_inputs` is `all(|x| < +∞) ∧ all(|w| < +∞)`, printed as two reductions by `and` from `true` over the comparison
  arrays and the `and` of the two results. That the result is `1` says every comparison is `1` (a reduction by `and`
  over all axes that came out `1` met only `1`s), and on the extended reals `max a (-a) < ⊤` fails exactly at `a = ±∞`:
  so each entry is the image of a real. This is what the two straight-through wrappers `x + (q - x)` of the reference
  need; nothing else in the certificate opens the precondition.
-/
import proofs.«142483_j88905823027952_1_alg».proof.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic Idealize.ShloMosaic.ValueIdx Cert.Pre_finite_inputs

instance : Subsingleton S_.Idx := ⟨fun a b => funext fun d => d.elim0⟩

/-- An extended real whose absolute value is below `+∞` (the pattern `0x7F800000`) is a real number. -/
theorem real_of_abs_lt_top (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  induction a using EReal.rec with
  | bot => exfalso; simp [Ideal.cmp] at h
  | top => exfalso; simp [Ideal.cmp] at h
  | coe r => exact ⟨r, rfl⟩

/-- Under the precondition both arguments hold real numbers only. -/
theorem reals_of_pre [Facts] (x : FVec Ideal S4x2048x4096 .f32) (w : FVec Ideal S4096x4096 .f32)
    (h : fn (F := Ideal) x w = fun _ => 1#1) :
    (∀ i, ∃ r : ℝ, x i = (r : EReal)) ∧ (∀ i, ∃ r : ℝ, w i = (r : EReal)) := by
  have h0 := congrFun h ix0
  dsimp only [fn] at h0
  obtain ⟨hx, hw⟩ := IntOp.andi_eq_one.mp h0
  exact ⟨fun i => real_of_abs_lt_top (x i) (Host.reduce_andi_all _ _ _ _ ix0 hx i),
    fun i => real_of_abs_lt_top (w i) (Host.reduce_andi_all _ _ _ _ ix0 hw i)⟩

end Cert.FiniteInputs

end
-- ==== Proof.Bridge.lean ====
/-
  The two results are one function of the arguments.

  Kernel: the output array [8192, 4096] holds at (a, o) the whole contraction Σ_{k < 4096} Q[a, k] · W[o, k], with Q the
  activations reshaped to [8192, 4096] and quantized within each group of 64 along a row, and W the ternary weights (their
  cast to bf16 is the identity on the extended reals); the result is that array reshaped to [4, 2048, 4096], so at (b, s, o)
  it is the contraction at a = 2048 b + s. Reference: at (b, s, o) the contraction of row (b, s) of the wrapped quantized
  activations with row o of the wrapped ternary weights. Row a = 2048 b + s of the reshaped activations is row (b, s) of the
  activations, so the two quantizers see the same groups; the ternary weights are computed by the same operations on both
  sides; and, the arguments being real numbers (the precondition), both straight-through wrappers return what they wrap.
  Term by term the two sums agree.
-/
import proofs.«142483_j88905823027952_1_alg».proof.Proof.KernelRun
import proofs.«142483_j88905823027952_1_alg».proof.Proof.RefValue
import proofs.«142483_j88905823027952_1_alg».proof.Proof.FiniteInputs

noncomputable section

namespace Cert.Proof.Bridge

open Idealize.ShloMosaic Idealize.ShloMosaic.TcCoe Idealize.ShloMosaic.ValueIdx Idealize.SL.Sem
open Cert.KernelIdeal.Accumulate Cert.KernelIdeal.Contraction Cert.KernelIdeal.KernelRun Cert.ReferenceIdeal.ReadP Cert.ReferenceIdeal.RefValue

/-- The ternary weights are the same operations on both sides (any float instance). -/
theorem ternary_eq {F : FTy → Type} [FloatOps F] (w : FVec F Cert.KernelIdeal.S4096x4096 .f32) :
    ternary w = val_main_v27 (F := F) w := rfl

variable (m : (ℓ : Loc Cert.KernelIdeal.nD Cert.KernelIdeal.τ Cert.KernelIdeal.sig) → Buf (Elt Ideal) ℓ) (c : Dev Cert.KernelIdeal.nD)

/-- The two arguments as the kernel's memory holds them. -/
abbrev arg0 : FVec Ideal Cert.ReferenceIdeal.S4x2048x4096 .f32 := m ((c.tc : Thread Cert.KernelIdeal.nD Cert.KernelIdeal.τ).loc Cert.KernelIdeal.main_arg0)
abbrev arg1 : FVec Ideal Cert.ReferenceIdeal.S4096x4096 .f32 := m ((c.tc : Thread Cert.KernelIdeal.nD Cert.KernelIdeal.τ).loc Cert.KernelIdeal.main_arg1)

/-- Row 2048 b + s of the reshaped activations is row (b, s) of the activations. -/
theorem xN_apply (b : Fin 4) (s : Fin 2048) (k : Fin 4096) :
    xN m c (b.val * 2048 + s.val) k.val = arg0 m c (ix3 b s k) := by
  have hb := b.isLt; have hs := s.isLt; have hk := k.isLt
  unfold xN
  rw [x_eq]
  refine shapeCast_apply _ _ _ (ix3 b s k) ?_
  rw [Shape.rowMajor_val_three, Shape.rowMajor_val_two]
  show (b.val * 2048 + s.val) * 4096 + k.val = (b.val * 2048 + s.val) % 8192 * 4096 + k.val % 4096
  omega

/-- The kernel's weights at (o, k) are the reference's ternary weights there. -/
theorem wN_apply (o k : Fin 4096) :
    wN m c o.val k.val = val_main_v27 (F := Ideal) (arg1 m c) (ix2 o k) := by
  have ho := o.isLt; have hk := k.isLt
  unfold wN
  rw [w_eq, truncf_apply, ternary_eq]
  refine congrArg (val_main_v27 (F := Ideal) (arg1 m c)) (funext fun a => Fin.ext ?_)
  match a with
  | ⟨0, _⟩ => show o.val % 4096 = o.val; omega
  | ⟨1, _⟩ => show k.val % 4096 = k.val; omega

/-- The kernel's quantized activation at (2048 b + s, k) is the reference's quantizer of the same group at the same place. -/
theorem qN_apply (b : Fin 4) (s : Fin 2048) (k : Fin 4096) :
    qN m c (b.val * 2048 + s.val) k.val = GroupQuant.quant (group (arg0 m c) b s (grpOf k)) (placeOf k) := by
  unfold qN
  have hg : (fun e : Fin 64 => xN m c (b.val * 2048 + s.val) (k.val / 64 * 64 + e.val)) = group (arg0 m c) b s (grpOf k) :=
    funext fun e => xN_apply m c b s (entry (grpOf k) e)
  rw [hg]

/-- THE BRIDGE: where both arguments hold real numbers, the kernel's result is the reference's result of the same arguments. -/
theorem result_eq (hx : ∀ i, ∃ r : ℝ, arg0 m c i = (r : EReal)) (hw : ∀ i, ∃ r : ℝ, arg1 m c i = (r : EReal)) :
    result m c = val_main_v30 (F := Ideal) (arg0 m c) (arg1 m c) := by
  refine funext fun (i : Cert.ReferenceIdeal.S4x2048x4096.Idx) => ?_
  obtain ⟨b, s, o, rfl⟩ : ∃ (b : Fin 4) (s : Fin 2048) (o : Fin 4096), i = ix3 b s o := ⟨i 0, i 1, i 2, eq_ix3 i⟩
  have hb := b.isLt; have hs := s.isLt; have ho := o.isLt
  rw [result_apply]
  unfold result
  rw [shapeCast_apply (out m c) _ (ix3 b s o) (ix2 (⟨b.val * 2048 + s.val, by omega⟩ : Fin 8192) o) (by
    rw [Shape.rowMajor_val_three, Shape.rowMajor_val_two]
    show (b.val * 2048 + s.val) * 4096 + o.val = (b.val * 2048 + s.val) * 4096 + o.val
    rfl)]
  unfold out
  show ∑ kx ∈ Finset.range 4096, term m c (b.val * 2048 + s.val) o.val kx = _
  rw [← Fin.sum_univ_eq_sum_range (fun kx => term m c (b.val * 2048 + s.val) o.val kx) 4096]
  refine Finset.sum_congr rfl fun k _ => ?_
  unfold term
  rw [qN_apply, wN_apply, ste_x _ hx, xq_apply, ste_w _ hw]

end Cert.Proof.Bridge

end
-- ==== Proof.lean ====
/-
  A linear layer with fake-quantized activations and ternary weights against its jnp reference, over the extended reals.

  The kernel tiles the product of the quantized activations [8192, 4096] with the ternary weights [4096, 4096] over an
  [8, 4, 4] grid: at point (i, j, k) it quantizes the activation tile (i, k) group by group (absmax over 64 entries, scale
  127 / max(ε, absmax), round, clip, scale back) and adds its product with the weight tile (j, k) into a scratch
  accumulator, which it resets at k = 0 and stores into output block (i, j) at k = 3. The reference quantizes the whole
  array the same way, wraps both quantized operands as `v + (q - v)`, and takes one contraction.

  frame_Kernel, frame_KernelIdeal : the generated frames. frame_ReferenceIdeal : the reference's run with its result
  dropped. preserves : the ideal pass rewrote nothing. algebraic : the kernel's output array is the whole contraction
  (Proof/Contraction.lean: the four tiles of the contraction axis add up, in any order, no finiteness asked), and term by
  term that contraction is the reference's (Proof/Bridge.lean) once the wrappers are removed, which is where the
  precondition is used: `v + (q - v) = q` for a real `v` and any extended real `q`.
-/
import proofs.«142483_j88905823027952_1_alg».proof.Defs
import proofs.«142483_j88905823027952_1_alg».proof.Proof.Gen.Kernel
import proofs.«142483_j88905823027952_1_alg».proof.Proof.Gen.Kernel.Frame
import proofs.«142483_j88905823027952_1_alg».proof.Proof.Gen.KernelIdeal
import proofs.«142483_j88905823027952_1_alg».proof.Proof.Gen.KernelIdeal.Frame
import proofs.«142483_j88905823027952_1_alg».proof.Proof.Gen.ReferenceIdeal
import proofs.«142483_j88905823027952_1_alg».proof.Proof.Gen.Pre_finite_inputs
import proofs.«142483_j88905823027952_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs run; the kernel's result is the reshaped whole contraction, the reference's its composed term of
    arguments that agree with the kernel's; the bridge identifies the two where the arguments are real numbers. -/
theorem algebraic : Cert.algebraic_KernelIdeal_ReferenceIdeal := by
  intro m ρ m' ρ' hpre hagree
  refine ⟨fun c => Cert.KernelIdeal.KernelRun.result m c, Cert.KernelIdeal.KernelRun.run m ρ, ?_⟩
  refine (θ_run Cert.ReferenceIdeal.defs _ _).mono (fun _ h c => ⟨(h c).1.trans ?_, (h c).2⟩)
    (Cert.ReferenceIdeal.ValueP.run (F := Ideal) m' ρ')
  obtain ⟨hx, hw⟩ := Cert.FiniteInputs.reals_of_pre _ _ (hpre c)
  rw [(hagree c).1, (hagree c).2]
  exact (Cert.ReferenceIdeal.ReadP.val_main_v30_eq _ _).trans (Cert.Proof.Bridge.result_eq m c hx hw).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
